-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x64 : Shape := ⟨2, ![262144, 64]⟩
abbrev S262144 : Shape := ⟨1, ![262144]⟩
abbrev S1000x64 : Shape := ⟨2, ![1000, 64]⟩
abbrev S_ : Shape := ⟨0, ![]⟩

class Facts : Prop where
  bcast_S_S262144x64 : S_.BroadcastsInDim S262144x64 (![] : Fin 0 → Fin S262144x64.rank)
  reducesTo_S262144x64_S_d0_1 : S262144x64.ReducesTo [0, 1] S_
  h_S_ : 0 < S_.numel
  bcast_S_S1000x64 : S_.BroadcastsInDim S1000x64 (![] : Fin 0 → Fin S1000x64.rank)
  reducesTo_S1000x64_S_d0_1 : S1000x64.ReducesTo [0, 1] S_
  bcast_S_S262144 : S_.BroadcastsInDim S262144 (![] : Fin 0 → Fin S262144.rank)
  reducesTo_S262144_S_d0 : S262144.ReducesTo [0] S_

variable [Facts]

def fn {F : FTy → Type} [FloatOps F] (main_arg0 : FVec F S262144x64 .f32) (main_arg1 : IVec S262144 32) (main_arg2 : FVec F S1000x64 .f32) : IVec S_ 1 :=
  let main_v0 : FVec F S262144x64 .f32 := Host.absf main_arg0
  let main_cst : FVec F S_ .f32 := constant S_ .f32 0x7F800000#32
  let main_v1 : FVec F S262144x64 .f32 := broadcastInDim S262144x64 ![] bcast_S_S262144x64 main_cst
  let main_v2 : IVec S262144x64 1 := cmpf .olt main_v0 main_v1
  let main_c : IVec S_ 1 := constantI S_ 1 1#1
  let main_v3 : IVec S_ 1 := (fun x v => Host.reduce IntOp.andi x v reducesTo_S262144x64_S_d0_1 h_S_) main_v2 main_c
  let main_v4 : FVec F S1000x64 .f32 := Host.absf main_arg2
  let main_cst_0 : FVec F S_ .f32 := constant S_ .f32 0x7F800000#32
  let main_v5 : FVec F S1000x64 .f32 := broadcastInDim S1000x64 ![] bcast_S_S1000x64 main_cst_0
  let main_v6 : IVec S1000x64 1 := cmpf .olt main_v4 main_v5
  let main_c_1 : IVec S_ 1 := constantI S_ 1 1#1
  let main_v7 : IVec S_ 1 := (fun x v => Host.reduce IntOp.andi x v reducesTo_S1000x64_S_d0_1 h_S_) main_v6 main_c_1
  let main_v8 : IVec S_ 1 := andi main_v3 main_v7
  let main_c_2 : IVec S_ 32 := constantI S_ 32 0#32
  let main_v9 : IVec S262144 32 := broadcastInDim S262144 ![] bcast_S_S262144 main_c_2
  let main_v10 : IVec S262144 1 := cmpi .sge main_arg1 main_v9
  let main_c_3 : IVec S_ 32 := constantI S_ 32 1000#32
  let main_v11 : IVec S262144 32 := broadcastInDim S262144 ![] bcast_S_S262144 main_c_3
  let main_v12 : IVec S262144 1 := cmpi .slt main_arg1 main_v11
  let main_v13 : IVec S262144 1 := andi main_v10 main_v12
  let main_c_4 : IVec S_ 1 := constantI S_ 1 1#1
  let main_v14 : IVec S_ 1 := (fun x v => Host.reduce IntOp.andi x v reducesTo_S262144_S_d0 h_S_) main_v13 main_c_4
  let main_v15 : IVec S_ 1 := andi main_v8 main_v14
  main_v15
-- ==== Kernel.lean ====
abbrev S262144x64 : Shape := ⟨2, ![262144, 64]⟩
abbrev S262144 : Shape := ⟨1, ![262144]⟩
abbrev S1000x64 : Shape := ⟨2, ![1000, 64]⟩
abbrev S_ : Shape := ⟨0, ![]⟩
abbrev S262144x1 : Shape := ⟨2, ![262144, 1]⟩
abbrev S1 : Shape := ⟨1, ![1]⟩
abbrev S1x1 : Shape := ⟨2, ![1, 1]⟩
abbrev S2x1x1 : Shape := ⟨3, ![2, 1, 1]⟩
abbrev S4096x64 : Shape := ⟨2, ![4096, 64]⟩
abbrev S1x1x1 : Shape := ⟨3, ![1, 1, 1]⟩
abbrev S4096 : Shape := ⟨1, ![4096]⟩
abbrev S4096x1 : Shape := ⟨2, ![4096, 1]⟩

abbrev nBuf : Space → Nat
  | .hbm => 39
  | .vmem => 6
  | .smem => 0
  | _ => 0

abbrev bufTy : (tb : Table) → Fin (tcTables nBuf tb) → BufTy
  | .hbm, ⟨0, _⟩ => ⟨S262144x64, .f32⟩
  | .hbm, ⟨1, _⟩ => ⟨S262144, .i32⟩
  | .hbm, ⟨2, _⟩ => ⟨S1000x64, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S262144, .i32⟩
  | .hbm, ⟨7, _⟩ => ⟨S262144, .i32⟩
  | .hbm, ⟨8, _⟩ => ⟨S_, .i32⟩
  | .hbm, ⟨9, _⟩ => ⟨S262144, .i32⟩
  | .hbm, ⟨10, _⟩ => ⟨S262144, .i32⟩
  | .hbm, ⟨11, _⟩ => ⟨S_, .i32⟩
  | .hbm, ⟨12, _⟩ => ⟨S262144, .i32⟩
  | .hbm, ⟨13, _⟩ => ⟨S262144, .i1⟩
  | .hbm, ⟨14, _⟩ => ⟨S_, .i32⟩
  | .hbm, ⟨15, _⟩ => ⟨S262144, .i32⟩
  | .hbm, ⟨16, _⟩ => ⟨S262144, .i32⟩
  | .hbm, ⟨17, _⟩ => ⟨S262144, .i32⟩
  | .hbm, ⟨18, _⟩ => ⟨S262144x1, .i32⟩
  | .hbm, ⟨19, _⟩ => ⟨S1, .i32⟩
  | .hbm, ⟨20, _⟩ => ⟨S_, .i32⟩
  | .hbm, ⟨21, _⟩ => ⟨S262144x1, .i32⟩
  | .hbm, ⟨22, _⟩ => ⟨S262144x1, .i1⟩
  | .hbm, ⟨23, _⟩ => ⟨S1x1, .i32⟩
  | .hbm, ⟨24, _⟩ => ⟨S262144x1, .i32⟩
  | .hbm, ⟨25, _⟩ => ⟨S262144x1, .i1⟩
  | .hbm, ⟨26, _⟩ => ⟨S262144x1, .i1⟩
  | .hbm, ⟨27, _⟩ => ⟨S_, .i1⟩
  | .hbm, ⟨28, _⟩ => ⟨S262144, .i1⟩
  | .hbm, ⟨29, _⟩ => ⟨S262144x64, .f32⟩
  | .hbm, ⟨30, _⟩ => ⟨S262144x64, .i1⟩
  | .hbm, ⟨31, _⟩ => ⟨S_, .f32⟩
  | .hbm, ⟨32, _⟩ => ⟨S262144x64, .f32⟩
  | .hbm, ⟨33, _⟩ => ⟨S262144x64, .f32⟩
  | .hbm, ⟨34, _⟩ => ⟨S2x1x1, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S4096x64, .f32⟩
  | .local _ .vmem, ⟨1, _⟩ => ⟨S4096x64, .f32⟩
  | .local _ .vmem, ⟨2, _⟩ => ⟨S4096x64, .f32⟩
  | .local _ .vmem, ⟨3, _⟩ => ⟨S4096x64, .f32⟩
  | .local _ .vmem, ⟨4, _⟩ => ⟨S1x1x1, .f32⟩
  | .local _ .vmem, ⟨5, _⟩ => ⟨S1x1x1, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_call1_c : Ref sig .tc := ⟨.hbm, 11, rfl⟩
abbrev main_call1_v0 : Ref sig .tc := ⟨.hbm, 12, rfl⟩
abbrev main_call1_v1 : Ref sig .tc := ⟨.hbm, 13, rfl⟩
abbrev main_call1_c_0 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_call1_v5 : Ref sig .tc := ⟨.hbm, 18, rfl⟩
abbrev main_call1_c_1 : Ref sig .tc := ⟨.hbm, 19, rfl⟩
abbrev main_call1_c_2 : Ref sig .tc := ⟨.hbm, 20, rfl⟩
abbrev main_call1_v6 : Ref sig .tc := ⟨.hbm, 21, rfl⟩
abbrev main_call1_v7 : Ref sig .tc := ⟨.hbm, 22, rfl⟩
abbrev main_call1_v8 : Ref sig .tc := ⟨.hbm, 23, rfl⟩
abbrev main_call1_v9 : Ref sig .tc := ⟨.hbm, 24, rfl⟩
abbrev main_call1_v10 : Ref sig .tc := ⟨.hbm, 25, rfl⟩
abbrev main_call1_v11 : Ref sig .tc := ⟨.hbm, 26, rfl⟩
abbrev main_call1_c_3 : Ref sig .tc := ⟨.hbm, 27, rfl⟩
abbrev main_call1_v12 : Ref sig .tc := ⟨.hbm, 28, rfl⟩
abbrev main_call1_v13 : Ref sig .tc := ⟨.hbm, 29, rfl⟩
abbrev main_call1_v14 : Ref sig .tc := ⟨.hbm, 30, rfl⟩
abbrev main_call1_cst : Ref sig .tc := ⟨.hbm, 31, rfl⟩
abbrev main_call1_v15 : Ref sig .tc := ⟨.hbm, 32, rfl⟩
abbrev main_v1 : Ref sig .tc := ⟨.hbm, 33, rfl⟩
abbrev main_v2 : Ref sig .tc := ⟨.hbm, 34, rfl⟩
abbrev main_cst : Ref sig .tc := ⟨.hbm, 35, rfl⟩
abbrev main_v3 : Ref sig .tc := ⟨.hbm, 36, rfl⟩
abbrev main_cst_1 : Ref sig .tc := ⟨.hbm, 37, rfl⟩
abbrev main_v4 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  reducesTo_S262144x1_S262144_d1 : S262144x1.ReducesTo [1] S262144
  h_S_ : 0 < S_.numel
  bcast_S262144_S262144x64_0 : S262144.BroadcastsInDim S262144x64 (![0] : Fin 1 → Fin S262144x64.rank)
  bcast_S_S262144x64 : S_.BroadcastsInDim S262144x64 (![] : Fin 0 → Fin S262144x64.rank)
  inb_S1x1x1_S1x1x1_0_0_0 : ∀ a, (![0, 0, 0] : Fin 3 → Nat) a + S1x1x1.size a ≤ S1x1x1.size a
  h_S1x1x1 : 0 < S1x1x1.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  reduces_S4096x64_S4096 : S4096x64.Reduces [1] S4096
  shapeCasts_S4096_S4096x1 : S4096.ShapeCasts S4096x1
  reduces_S4096x1_S1 : S4096x1.Reduces [0] S1
  shapeCasts_S1_S1x1 : S1.ShapeCasts S1x1
  shapeCasts_S1x1x1_S1x1x1 : S1x1x1.ShapeCasts S1x1x1
  shapeCasts_S1x1_S1x1x1 : S1x1.ShapeCasts S1x1x1
  reducesTo_S2x1x1_S_d0_1_2 : S2x1x1.ReducesTo [0, 1, 2] S_
  gather_S1000x64_S262144x1_S262144x64_1_0_n_n_0_1_164_wf : GatherDims.WF S1000x64 S262144x1 S262144x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S262144x64.size a
  hwx0_0 : ∀ i : grid0.Coords, EltTy.bits .f32 = 32 ∨ (Rect.block (s := S262144x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S262144x64.size a
  hwx0_1 : ∀ i : grid0.Coords, EltTy.bits .f32 = 32 ∨ (Rect.block (s := S262144x64) S4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

def gather_S1000x64_S262144x1_S262144x64_1_0_n_n_0_1_164 : GatherDims S1000x64 S262144x1 S262144x64 where
  offsetDims := [1]
  collapsedSliceDims := [0]
  operandBatchingDims := []
  startIndicesBatchingDims := []
  startIndexMap := [0]
  indexVectorDim := 1
  sliceSizes := ![1, 64]
  wf := gather_S1000x64_S262144x1_S262144x64_1_0_n_n_0_1_164_wf

abbrev win0_0 : Pipeline.Window sig grid0 :=
  Pipeline.Window.ofSpec (Memref.whole main_arg0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S262144x64 : Shape := ⟨2, ![262144, 64]⟩
abbrev S262144 : Shape := ⟨1, ![262144]⟩
abbrev S1000x64 : Shape := ⟨2, ![1000, 64]⟩
abbrev S_ : Shape := ⟨0, ![]⟩
abbrev S262144x1 : Shape := ⟨2, ![262144, 1]⟩
abbrev S1000 : Shape := ⟨1, ![1000]⟩
abbrev S1x1000 : Shape := ⟨2, ![1, 1000]⟩
abbrev S262144x1000 : Shape := ⟨2, ![262144, 1000]⟩
abbrev S64x1000 : Shape := ⟨2, ![64, 1000]⟩
abbrev S262144x1x1 : Shape := ⟨3, ![262144, 1, 1]⟩
abbrev S1 : Shape := ⟨1, ![1]⟩
abbrev S1x1x1 : Shape := ⟨3, ![1, 1, 1]⟩

abbrev nBuf : Space → Nat
  | .hbm => 57
  | .vmem => 0
  | .smem => 0
  | _ => 0

abbrev bufTy : (tb : Table) → Fin (tcTables nBuf tb) → BufTy
  | .hbm, ⟨0, _⟩ => ⟨S262144x64, .f32⟩
  | .hbm, ⟨1, _⟩ => ⟨S262144, .i32⟩
  | .hbm, ⟨2, _⟩ => ⟨S1000x64, .f32⟩
  | .hbm, ⟨3, _⟩ => ⟨S262144x64, .f32⟩
  | .hbm, ⟨4, _⟩ => ⟨S_, .f32⟩
  | .hbm, ⟨5, _⟩ => ⟨S262144, .f32⟩
  | .hbm, ⟨6, _⟩ => ⟨S262144x1, .f32⟩
  | .hbm, ⟨7, _⟩ => ⟨S1000x64, .f32⟩
  | .hbm, ⟨8, _⟩ => ⟨S_, .f32⟩
  | .hbm, ⟨9, _⟩ => ⟨S1000, .f32⟩
  | .hbm, ⟨10, _⟩ => ⟨S1x1000, .f32⟩
  | .hbm, ⟨11, _⟩ => ⟨S262144x1000, .f32⟩
  | .hbm, ⟨12, _⟩ => ⟨S262144x1000, .f32⟩
  | .hbm, ⟨13, _⟩ => ⟨S262144x1000, .f32⟩
  | .hbm, ⟨14, _⟩ => ⟨S64x1000, .f32⟩
  | .hbm, ⟨15, _⟩ => ⟨S262144x1000, .f32⟩
  | .hbm, ⟨16, _⟩ => ⟨S_, .f32⟩
  | .hbm, ⟨17, _⟩ => ⟨S262144x1000, .f32⟩
  | .hbm, ⟨18, _⟩ => ⟨S262144x1000, .f32⟩
  | .hbm, ⟨19, _⟩ => ⟨S262144x1000, .f32⟩
  | .hbm, ⟨20, _⟩ => ⟨S262144x1, .i32⟩
  | .hbm, ⟨21, _⟩ => ⟨S_, .i32⟩
  | .hbm, ⟨22, _⟩ => ⟨S262144x1, .i32⟩
  | .hbm, ⟨23, _⟩ => ⟨S262144x1, .i1⟩
  | .hbm, ⟨24, _⟩ => ⟨S_, .i32⟩
  | .hbm, ⟨25, _⟩ => ⟨S262144x1, .i32⟩
  | .hbm, ⟨26, _⟩ => ⟨S262144x1, .i32⟩
  | .hbm, ⟨27, _⟩ => ⟨S262144x1, .i32⟩
  | .hbm, ⟨28, _⟩ => ⟨S262144x1x1, .i32⟩
  | .hbm, ⟨29, _⟩ => ⟨S1, .i32⟩
  | .hbm, ⟨30, _⟩ => ⟨S_, .i32⟩
  | .hbm, ⟨31, _⟩ => ⟨S262144x1x1, .i32⟩
  | .hbm, ⟨32, _⟩ => ⟨S262144x1x1, .i1⟩
  | .hbm, ⟨33, _⟩ => ⟨S1x1x1, .i32⟩
  | .hbm, ⟨34, _⟩ => ⟨S262144x1x1, .i32⟩
  | .hbm, ⟨35, _⟩ => ⟨S262144x1x1, .i1⟩
  | .hbm, ⟨36, _⟩ => ⟨S262144x1x1, .i1⟩
  | .hbm, ⟨37, _⟩ => ⟨S_, .i1⟩
  | .hbm, ⟨38, _⟩ => ⟨S262144x1, .i1⟩
  | .hbm, ⟨39, _⟩ => ⟨S262144x1, .f32⟩
  | .hbm, ⟨40, _⟩ => ⟨S_, .f32⟩
  | .hbm, ⟨41, _⟩ => ⟨S262144x1, .f32⟩
  | .hbm, ⟨42, _⟩ => ⟨S262144x1, .f32⟩
  | .hbm, ⟨43, _⟩ => ⟨S262144, .f32⟩
  | .hbm, ⟨44, _⟩ => ⟨S262144, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S262144, .f32⟩
  | .hbm, ⟨49, _⟩ => ⟨S262144, .f32⟩
  | .hbm, ⟨50, _⟩ => ⟨S_, .f32⟩
  | .hbm, ⟨51, _⟩ => ⟨S262144, .f32⟩
  | .hbm, ⟨52, _⟩ => ⟨S262144, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_cst : Ref sig .tc := ⟨.hbm, 40, rfl⟩
abbrev main_call0_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_2 : Ref sig .tc := ⟨.hbm, 45, rfl⟩
abbrev main_cst_3 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v18 : Ref sig .tc := ⟨.hbm, 52, rfl⟩
abbrev main_cst_4 : Ref sig .tc := ⟨.hbm, 53, rfl⟩
abbrev main_v19 : Ref sig .tc := ⟨.hbm, 54, rfl⟩
abbrev main_cst_5 : Ref sig .tc := ⟨.hbm, 55, rfl⟩
abbrev main_v20 : Ref sig .tc := ⟨.hbm, 56, rfl⟩

abbrev nD : Nat := 1
abbrev τ : Topo := Topo.v7x

variable {F : FTy → Type} [FloatOps F]

class Facts₀ : Prop where
  reducesTo_S262144x64_S262144_d1 : S262144x64.ReducesTo [1] S262144
  h_S_ : 0 < S_.numel
  bcast_S262144_S262144x1_0 : S262144.BroadcastsInDim S262144x1 (![0] : Fin 1 → Fin S262144x1.rank)
  reducesTo_S1000x64_S1000_d1 : S1000x64.ReducesTo [1] S1000
  bcast_S1000_S1x1000_1 : S1000.BroadcastsInDim S1x1000 (![1] : Fin 1 → Fin S1x1000.rank)
  bcast_S262144x1_S262144x1000_0_1 : S262144x1.BroadcastsInDim S262144x1000 (![0, 1] : Fin 2 → Fin S262144x1000.rank)
  bcast_S1x1000_S262144x1000_0_1 : S1x1000.BroadcastsInDim S262144x1000 (![0, 1] : Fin 2 → Fin S262144x1000.rank)
  transposes_S1000x64_S64x1000_1_0 : S1000x64.Transposes [1, 0] S64x1000
  bcast_S_S262144x1000 : S_.BroadcastsInDim S262144x1000 (![] : Fin 0 → Fin S262144x1000.rank)
  bcast_S_S262144x1 : S_.BroadcastsInDim S262144x1 (![] : Fin 0 → Fin S262144x1.rank)
  shapeCasts_S262144x1_S262144x1x1 : S262144x1.ShapeCasts S262144x1x1
  bcast_S_S262144x1x1 : S_.BroadcastsInDim S262144x1x1 (![] : Fin 0 → Fin S262144x1x1.rank)
  bcast_S1_S1x1x1_2 : S1.BroadcastsInDim S1x1x1 (![2] : Fin 1 → Fin S1x1x1.rank)
  bcast_S1x1x1_S262144x1x1_0_1_2 : S1x1x1.BroadcastsInDim S262144x1x1 (![0, 1, 2] : Fin 3 → Fin S262144x1x1.rank)
  reducesTo_S262144x1x1_S262144x1_d2 : S262144x1x1.ReducesTo [2] S262144x1
  shapeCasts_S262144x1_S262144 : S262144x1.ShapeCasts S262144
  bcast_S_S262144 : S_.BroadcastsInDim S262144 (![] : Fin 0 → Fin S262144.rank)
  reducesTo_S262144_S_d0 : S262144.ReducesTo [0] S_
  dot_S262144x64_S64x1000_S262144x1000_1_0_0_1_n_n_wf : DotDims.WF S262144x64 S64x1000 S262144x1000 [1] [0] [0] [1] [] []
  gather_S262144x1000_S262144x1x1_S262144x1_n_1_0_0_1_2_11_wf : GatherDims.WF S262144x1000 S262144x1x1 S262144x1 [] [1] [0] [1] [0] 2 ![1, 1]

variable [Facts₀]

def dot_S262144x64_S64x1000_S262144x1000_1_0_0_1_n_n : DotDims S262144x64 S64x1000 S262144x1000 where
  lhsContracting := [1]
  rhsContracting := [0]
  lhsNonContracting := [0]
  rhsNonContracting := [1]
  lhsBatch := []
  rhsBatch := []
  wf := dot_S262144x64_S64x1000_S262144x1000_1_0_0_1_n_n_wf
def gather_S262144x1000_S262144x1x1_S262144x1_n_1_0_0_1_2_11 : GatherDims S262144x1000 S262144x1x1 S262144x1 where
  offsetDims := []
  collapsedSliceDims := [1]
  operandBatchingDims := [0]
  startIndicesBatchingDims := [0]
  startIndexMap := [1]
  indexVectorDim := 2
  sliceSizes := ![1, 1]
  wf := gather_S262144x1000_S262144x1x1_S262144x1_n_1_0_0_1_2_11_wf

class Facts : Prop extends Facts₀ where

variable [Facts]
-- ==== Proof.PreFacts.lean ====
/-
  What the precondition says of the three arguments, read off its printed form: it is the conjunction of three
  `all`-reductions, so when it is the constant 1 every entry of `x` and of the centres has an absolute value
  strictly below `+∞` — on the extended reals that makes it a real number — and every label word, read signed,
  lies in `[0, 1000)`.
-/
import proofs.«411633_j41197326303939_3_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.CenterDist.Pre

open Idealize.ShloMosaic Cert.Pre_finite_inputs

/-- A rank-0 shape has one index. -/
instance : Subsingleton S_.Idx := ⟨fun a b => funext fun d => d.elim0⟩

/-- The word `0x7F800000` denotes `+∞`. -/
theorem inf_eq : Ideal.ofBits .f32 0x7F800000#32 = ⊤ := by
  simp [Ideal.ofBits, Ideal.ieee]

/-- An extended real whose absolute value compares strictly below `+∞` is a real number. -/
theorem real_of_abs_lt (a : EReal) (h : Ideal.cmp .olt (max a (-a)) (Ideal.ofBits .f32 0x7F800000#32) = 1#1) :
    ∃ r : ℝ, a = r := by
  rw [inf_eq] at h
  have hlt : max a (-a) < ⊤ := by
    by_contra hn
    have e : Ideal.cmp .olt (max a (-a)) ⊤ = 0#1 := by
      show BitVec.ofBool (decide (max a (-a) < ⊤)) = 0#1
      rw [decide_eq_false hn]
      rfl
    rw [e] at h
    exact absurd h (by decide)
  induction a using EReal.rec with
  | bot => simp at hlt
  | top => simp at hlt
  | coe r => exact ⟨r, rfl⟩

/-- The precondition, unpacked: finite rows, finite centres, labels in range. -/
theorem of_pre [Facts] (x : FVec Ideal S262144x64 .f32) (lab : IVec S262144 32) (cen : FVec Ideal S1000x64 .f32)
    (h : fn (F := Ideal) x lab cen = fun _ => 1#1) :
    (∀ i, ∃ r : ℝ, x i = r) ∧ (∀ j, ∃ r : ℝ, cen j = r) ∧ (∀ i, 0 ≤ (lab i).toInt ∧ (lab i).toInt < 1000) := by
  have h0 := congrFun h ValueIdx.ix0
  dsimp only [fn] at h0
  obtain ⟨h8, h14⟩ := IntOp.andi_eq_one.1 h0
  obtain ⟨h3, h7⟩ := IntOp.andi_eq_one.1 h8
  refine ⟨fun i => ?_, fun j => ?_, fun i => ?_⟩
  · exact real_of_abs_lt _ (Host.reduce_andi_all _ _ _ _ _ h3 i)
  · exact real_of_abs_lt _ (Host.reduce_andi_all _ _ _ _ _ h7 j)
  · obtain ⟨hge, hlt⟩ := IntOp.andi_eq_one.1 (Host.reduce_andi_all _ _ _ _ _ h14 i)
    have hge' := IntOp.cmpi_sge.1 hge
    have hlt' := IntOp.cmpi_slt.1 hlt
    exact ⟨hge', hlt'⟩

end Cert.CenterDist.Pre

end
-- ==== Proof.Spec.lean ====
/-
  The mean clipped distance of each row of `x` to the centre its label selects, as ONE function of the three
  argument arrays over the extended reals, and the two pieces of algebra the two programs differ by.

  * `sqDist x c = ∑ d, (x d - c d)²` is what one program computes directly; the other computes
    `(0 + ∑ x²) + (0 + ∑ c²) - 2 · ∑ x·c`.  On FINITE rows the two agree (`expand`): the identity is the
    binomial one in the reals, and it needs finiteness (at an infinity the right side is `⊤ - ⊤`).
  * `term` is one row's contribution: the square root of the squared distance, clipped between the two printed
    bounds; `mean` is their sum from zero divided by the row count, as both programs end.
-/
import Idealize.ShloMosaic.PureOps.Ideal
import Idealize.ShloMosaic.PureOps.Ideal.Laws
import Idealize.ShloMosaic.Lib.ValueIdx
import Mathlib.Algebra.BigOperators.Fin
import Mathlib.Tactic.Ring

noncomputable section

namespace Cert.CenterDist

open Idealize.ShloMosaic Idealize.ShloMosaic.ValueIdx

/-- The shapes of the three arguments: the rows, their labels, the table of centres. -/
abbrev SX : Shape := ⟨2, ![262144, 64]⟩
abbrev SL : Shape := ⟨1, ![262144]⟩
abbrev SC : Shape := ⟨2, ![1000, 64]⟩

/-- The two clip bounds, kept as the words both programs print. -/
abbrev lo : EReal := Ideal.ofBits .f32 0x2B8CBCCC#32
abbrev hi : EReal := Ideal.ofBits .f32 0x5368D4A5#32
/-- The zero both programs start their sums from, and the row count they divide by. -/
abbrev zero : EReal := Ideal.ofBits .f32 0x00000000#32
abbrev count : EReal := Ideal.ofBits .f32 0x48800000#32

/-- The squared distance of two rows of 64 entries. -/
def sqDist (x c : Fin 64 → EReal) : EReal := ∑ d : Fin 64, (x d - c d) * (x d - c d)

/-- The distance, clipped from below and then from above. -/
def rowDist (x c : Fin 64 → EReal) : EReal := min hi (max lo (Ideal.sqrt (sqDist x c)))

/-- The class a label word selects: the word read signed and clamped into the table of 1000 centres. -/
def cls (l : BitVec 32) : Fin 1000 := ⟨min l.toInt.toNat 999, by omega⟩

/-- A label word already in `[0, 1000)` selects its own value. -/
theorem cls_val {l : BitVec 32} (h0 : 0 ≤ l.toInt) (h1 : l.toInt < 1000) : ((cls l).val : ℤ) = l.toInt := by
  unfold cls
  show ((min l.toInt.toNat 999 : ℕ) : ℤ) = l.toInt
  omega

/-- Row `i` of `x` and row `k` of the centres. -/
abbrev xrow (x : SX.Idx → EReal) (i : Fin 262144) : Fin 64 → EReal := fun d => x (ix2 i d)
abbrev crow (cen : SC.Idx → EReal) (k : Fin 1000) : Fin 64 → EReal := fun d => cen (ix2 k d)

/-- Row `i`'s contribution: its clipped distance to the centre of its class. -/
def term (x : SX.Idx → EReal) (lab : SL.Idx → BitVec 32) (cen : SC.Idx → EReal) (i : Fin 262144) : EReal :=
  rowDist (xrow x i) (crow cen (cls (lab (ix1 i))))

/-- The result of both programs: the contributions summed from zero, divided by the row count. -/
def mean (x : SX.Idx → EReal) (lab : SL.Idx → BitVec 32) (cen : SC.Idx → EReal) : EReal :=
  Ideal.div (zero + ∑ i : Fin 262144, term x lab cen i) count

/-! ## The binomial identity on finite rows -/

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The word `2.0` denotes the real 2. -/
theorem two_eq : Ideal.ofBits .f32 0x40000000#32 = ((2 : ℝ) : EReal) := by
  simp [Ideal.ofBits, Ideal.ieee, -EReal.coe_mul]; norm_num

/-- On rows of finite entries, `‖x‖² + ‖c‖² - 2·⟨x, c⟩` (each sum started from the zero word) is `‖x - c‖²`. -/
theorem expand (x c : Fin 64 → EReal) (hx : ∀ d, ∃ r : ℝ, x d = r) (hc : ∀ d, ∃ r : ℝ, c d = r) :
    (zero + ∑ d : Fin 64, x d * x d) + (zero + ∑ d : Fin 64, c d * c d)
        - Ideal.ofBits .f32 0x40000000#32 * ∑ d : Fin 64, x d * c d
      = sqDist x c := by
  choose xr hxr using hx
  choose cr hcr using hc
  obtain rfl : x = fun d => ((xr d : ℝ) : EReal) := funext hxr
  obtain rfl : c = fun d => ((cr d : ℝ) : EReal) := funext hcr
  unfold sqDist
  rw [show zero = 0 from Ideal.ofBits_zero_f32, two_eq]
  simp only [zero_add, ← EReal.coe_mul, ← EReal.coe_sub, ← coe_sum, ← EReal.coe_add]
  refine congrArg _ ?_
  rw [Finset.mul_sum, ← Finset.sum_add_distrib, ← Finset.sum_sub_distrib]
  exact Finset.sum_congr rfl fun d _ => by ring

end Cert.CenterDist

end
-- ==== Proof.KernelBody.lean ====
/-
  What one grid point of the kernel leaves in the output's one-entry staging buffer.  The body's one store writes
  `old + ∑ over the block's 4096 rows of the row's clipped distance`, where `old` is what the buffer held (the point
  before left it) or, at a point that resets, the zero word the body has just stored and read back.  First the two
  cases' stored pieces are identified with the payload term (at any float instance), then the payload is read over
  the extended reals: the two lane reductions are finite sums, the casts between one-entry shapes move nothing.
-/
import proofs.«411633_j41197326303939_3_alg».proof.Proof.Gen.KernelIdeal.Frame
import proofs.«411633_j41197326303939_3_alg».proof.Proof.Spec
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Body

open Cert.KernelIdeal Cert.KernelIdeal.Gen Idealize.ShloMosaic.ValueIdx Cert.CenterDist

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A point that does not reset: the body leaves, in the output's staging buffer holding `xo`, its one store's
    payload of the two input blocks and `xo`. -/
theorem out_B (c : Dev nD) (i : grid0.Coords) (a2 : Memref sig .tc .vmem S4096x64 .f32) (h2 : a2.IsWhole)
    (a3 : Memref sig .tc .vmem S4096x64 .f32) (h3 : a3.IsWhole) (a4 : Memref sig .tc .vmem S1x1x1 .f32) (h4 : a4.IsWhole)
    (hc : ¬cond0_0 i) (x0 x1 : Vec F S4096x64 .f32) (xo : Vec F S1x1x1 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz3]
  simp only [View.readAt_eq_ld, h2.read_unread, h3.read_unread, h4.read_unread, View.ld_unit_zero (S := S4096x64) hz2,
    View.ld_unit_zero (S := S1x1x1) hz3]

/-- A point that resets: the body stores the zero word, reads it back, and leaves the same payload over it. -/
theorem out_A (c : Dev nD) (i : grid0.Coords) (a2 : Memref sig .tc .vmem S4096x64 .f32) (h2 : a2.IsWhole)
    (a3 : Memref sig .tc .vmem S4096x64 .f32) (h3 : a3.IsWhole) (a4 : Memref sig .tc .vmem S1x1x1 .f32) (h4 : a4.IsWhole)
    (hc : cond0_0 i) (x0 x1 : Vec F S4096x64 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, View.ld_unit_zero (S := S4096x64) hz2]

/-- The sum over a block's 4096 rows of each row's clipped distance. -/
def blockOf (x0 x1 : S4096x64.Idx → EReal) : EReal :=
  ∑ r : Fin 4096, rowDist (fun d => x0 (ix2 r d)) (fun d => x1 (ix2 r d))

/-- The reset stores the zero word. -/
theorem pay1_apply (j : S1x1x1.Idx) : k0_pay1 (F := Ideal) j = zero := rfl

/-- A value of the one-entry shapes read through the two casts that add unit axes. -/
theorem cast11 (M : S1.Idx → EReal) (j : S1x1x1.Idx) :
    shapeCast S1x1x1 (shapeCast S1x1 M shapeCasts_S1_S1x1) shapeCasts_S1x1_S1x1x1 j = M (ix1 (0 : Fin 1)) := by
  unfold shapeCast
  refine congrArg M (funext fun a => Fin.ext ?_)
  match a with
  | ⟨0, _⟩ =>
    have h := (Shape.reshapeEquiv shapeCasts_S1_S1x1 (Shape.reshapeEquiv shapeCasts_S1x1_S1x1x1 j) ⟨0, by decide⟩).isLt
    have h' : (Shape.reshapeEquiv shapeCasts_S1_S1x1 (Shape.reshapeEquiv shapeCasts_S1x1_S1x1x1 j) ⟨0, by decide⟩).val < 1 := h
    show (Shape.reshapeEquiv shapeCasts_S1_S1x1 (Shape.reshapeEquiv shapeCasts_S1x1_S1x1x1 j) ⟨0, by decide⟩).val = 0
    omega

/-- Row `r`'s squared distance as the payload computes it: the lane sum of the squared differences. -/
theorem lane_sum (x0 x1 : S4096x64.Idx → EReal) (r : Fin 4096) (hφ : FKind.Formats .f32)
    (hacc : (0#32 : BitVec 32) = FKind.add.neutral .f32 hφ) :
    multiReduction (F := Ideal) FKind.add [1] S4096 (mulf (subf x0 x1) (subf x0 x1)) (0#32) reduces_S4096x64_S4096 hφ hacc (ix1 r)
      = sqDist (fun d => x0 (ix2 r d)) (fun d => x1 (ix2 r d)) := by
  refine (Ideal.multiReduction_add_single _ _ reduces_S4096x64_S4096 hφ hacc (ix1 r)).trans ?_
  unfold sqDist
  refine Finset.sum_congr rfl fun d _ => ?_
  have e : reduces_S4096x64_S4096.lift (ix1 r) d = ix2 r d := funext fun a => Fin.ext (by
    match a with
    | ⟨0, _⟩ => rfl
    | ⟨1, _⟩ => rfl)
  rw [e]
  rfl

/-- The payload over the extended reals: what the buffer held plus the block's sum of clipped distances. -/
theorem pay2_apply (x0 x1 : S4096x64.Idx → EReal) (v17 : S1x1x1.Idx → EReal) (j : S1x1x1.Idx) :
    k0_pay2 (F := Ideal) x0 x1 v17 j = v17 j + blockOf x0 x1 := by
  unfold k0_pay2
  simp only [shapeCast_self]
  refine (addf_apply _ _ j).trans (congrArg (v17 j + ·) ?_)
  refine (cast11 _ j).trans ?_
  refine (Ideal.multiReduction_add_single _ _ reduces_S4096x1_S1 _ _ (ix1 (0 : Fin 1))).trans ?_
  unfold blockOf
  refine Finset.sum_congr rfl fun r _ => ?_
  unfold rowDist
  show min hi (max lo (Ideal.sqrt (shapeCast S4096x1 _ shapeCasts_S4096_S4096x1 (reduces_S4096x1_S1.lift (ix1 (0 : Fin 1)) r)))) = _
  refine congrArg (fun z => min hi (max lo (Ideal.sqrt z))) ?_
  refine (shapeCast_apply _ shapeCasts_S4096_S4096x1 _ (ix1 r) ?_).trans (lane_sum x0 x1 r _ _)
  rw [Shape.rowMajor_val_one, Shape.rowMajor_val_two]
  show r.val = r.val * 1 + 0
  omega

end Cert.KernelIdeal.Body

end
-- ==== Proof.LibBlockedSum.lean ====
/-
  Sums cut into blocks.

  A sum over `n` terms, read in `B` blocks of `T` consecutive terms with `n ≤ B * T`, where the positions at or
  past `n` (the overhang of the last block) contribute the zero of the monoid.  The bookkeeping is done once on
  functions of a natural number: `ext0 g` extends `g : Fin n → α` by zero, the sum of `B` blocks of `T` is the sum
  over `range (B * T)` (`sum_blocks_range`), and the zero tail is dropped (`sum_range_ext0`).  `sum_blocks` is the
  statement over `Fin B` and `Fin T`; `sum_blocks_partial` / `sum_blocks_succ` are the partial sums over the first
  `k` blocks, the shape an induction over the block index wants.  Last, the masked product: a term whose first factor
  is masked to zero past `n` does not depend on its second factor there (`zero_mul` in the extended reals), so a
  blocked sum of masked products is the plain sum of products (`sum_blocks_masked_mul`).
-/
import Mathlib.Algebra.BigOperators.Fin
import Mathlib.Algebra.BigOperators.Group.Finset.Basic
import Mathlib.Data.EReal.Operations

open scoped BigOperators
open Finset

namespace Cert.LibBlockedSum

variable {α : Type*} [AddCommMonoid α]

/-- `g` extended by zero: `g ⟨i, _⟩` at `i < n`, zero from `n` on. -/
def ext0 {n : ℕ} (g : Fin n → α) (i : ℕ) : α := if h : i < n then g ⟨i, h⟩ else 0

/-- Below `n` the extension is `g`. -/
theorem ext0_of_lt {n : ℕ} (g : Fin n → α) {i : ℕ} (h : i < n) : ext0 g i = g ⟨i, h⟩ := dif_pos h

/-- From `n` on the extension is zero. -/
theorem ext0_of_le {n : ℕ} (g : Fin n → α) {i : ℕ} (h : n ≤ i) : ext0 g i = 0 := dif_neg (Nat.not_lt.mpr h)

/-- The extension at an index of `Fin n`. -/
theorem ext0_val {n : ℕ} (g : Fin n → α) (p : Fin n) : ext0 g p.val = g p := by
  rw [ext0_of_lt g p.isLt]

/-- One more block: the sum over `range ((k + 1) * T)` is the sum over `range (k * T)` plus block `k`. -/
theorem sum_range_succ_block (G : ℕ → α) (T k : ℕ) :
    ∑ i ∈ range ((k + 1) * T), G i = ∑ i ∈ range (k * T), G i + ∑ q ∈ range T, G (k * T + q) := by
  rw [Nat.succ_mul, sum_range_add]

/-- The sum of the first `k` blocks of `T` terms is the sum over `range (k * T)`. -/
theorem sum_blocks_range (G : ℕ → α) (T k : ℕ) :
    ∑ kk ∈ range k, ∑ q ∈ range T, G (kk * T + q) = ∑ i ∈ range (k * T), G i := by
  induction k with
  | zero => simp
  | succ k ih => rw [sum_range_succ, ih, sum_range_succ_block]

/-- A function that vanishes from `n` on has the same sum over any longer range. -/
theorem sum_range_of_zero_tail (G : ℕ → α) {n N : ℕ} (hN : n ≤ N) (hG : ∀ i, n ≤ i → G i = 0) :
    ∑ i ∈ range N, G i = ∑ i ∈ range n, G i := by
  obtain ⟨d, rfl⟩ := Nat.exists_eq_add_of_le hN
  rw [sum_range_add, sum_eq_zero (s := range d) (fun i _ => hG (n + i) (Nat.le_add_right n i)), add_zero]

/-- The extension by zero summed over a range that reaches `n` is the sum of `g`. -/
theorem sum_range_ext0 {n N : ℕ} (g : Fin n → α) (hN : n ≤ N) :
    ∑ i ∈ range N, ext0 g i = ∑ p : Fin n, g p := by
  rw [sum_range_of_zero_tail (ext0 g) hN (fun i hi => ext0_of_le g hi), Finset.sum_range]
  exact Finset.sum_congr rfl (fun p _ => ext0_val g p)

/-- The extension by zero summed over a range SHORT of `n` is the sum of `g` over the indices below the bound. -/
theorem sum_range_ext0_lt {n N : ℕ} (g : Fin n → α) (hN : N ≤ n) :
    ∑ i ∈ range N, ext0 g i = ∑ p ∈ univ.filter (fun p : Fin n => p.val < N), g p := by
  rw [Finset.sum_range, Finset.sum_filter]
  have h : ∀ i : Fin N, ext0 g i.val = g (Fin.castLE hN i) := fun i => ext0_of_lt g (lt_of_lt_of_le i.isLt hN)
  rw [Finset.sum_congr rfl (fun i _ => h i)]
  -- both sides are the sum of `ext0 g` cut at `N`, over `range n`
  have e1 : ∑ i : Fin N, g (Fin.castLE hN i) = ∑ i ∈ range N, ext0 g i := by
    rw [Finset.sum_range]; exact Finset.sum_congr rfl (fun i _ => (h i).symm)
  have e2 : ∑ p : Fin n, (if p.val < N then g p else 0) = ∑ i ∈ range n, (if i < N then ext0 g i else 0) := by
    rw [Finset.sum_range]; exact Finset.sum_congr rfl (fun p _ => by rw [ext0_val])
  rw [e1, e2]
  obtain ⟨d, rfl⟩ := Nat.exists_eq_add_of_le hN
  rw [sum_range_add]
  have z : ∑ x ∈ range d, (if N + x < N then ext0 g (N + x) else 0) = 0 :=
    sum_eq_zero (fun x _ => if_neg (by omega))
  rw [z, add_zero]
  exact Finset.sum_congr rfl (fun i hi => (if_pos (mem_range.mp hi)).symm)

/-- **A sum in blocks.**  With `n ≤ B * T`, the sum over `B` blocks of `T` lanes of the term at position
    `kk * T + q`, zero where that position is at or past `n`, is the sum of all `n` terms. -/
theorem sum_blocks {n B T : ℕ} (hn : n ≤ B * T) (g : Fin n → α) :
    ∑ kk : Fin B, ∑ q : Fin T, (if h : kk.val * T + q.val < n then g ⟨kk.val * T + q.val, h⟩ else 0)
      = ∑ p : Fin n, g p := by
  have h1 : ∀ kk : Fin B, ∑ q : Fin T, (if h : kk.val * T + q.val < n then g ⟨kk.val * T + q.val, h⟩ else 0)
      = ∑ q ∈ range T, ext0 g (kk.val * T + q) := fun kk => by
    rw [Finset.sum_range]; rfl
  rw [Finset.sum_congr rfl (fun kk _ => h1 kk),
    ← Finset.sum_range (fun kk => ∑ q ∈ range T, ext0 g (kk * T + q)), sum_blocks_range, sum_range_ext0 g hn]

/-- **The first `k` blocks.**  The partial sum over blocks `0 … k - 1` is the sum of the terms below `k * T` (and
    below `n`): the extension by zero summed over `range (k * T)`. -/
theorem sum_blocks_partial {n T : ℕ} (g : Fin n → α) (k : ℕ) :
    ∑ kk ∈ range k, ∑ q : Fin T, (if h : kk * T + q.val < n then g ⟨kk * T + q.val, h⟩ else 0)
      = ∑ i ∈ range (k * T), ext0 g i := by
  have h1 : ∀ kk : ℕ, ∑ q : Fin T, (if h : kk * T + q.val < n then g ⟨kk * T + q.val, h⟩ else 0)
      = ∑ q ∈ range T, ext0 g (kk * T + q) := fun kk => by
    rw [Finset.sum_range]; rfl
  rw [Finset.sum_congr rfl (fun kk _ => h1 kk), sum_blocks_range]

/-- **The induction step over the block index**: an accumulator that holds the terms below `k * T` and receives
    block `k` holds the terms below `(k + 1) * T`. -/
theorem sum_blocks_succ {n T : ℕ} (g : Fin n → α) (k : ℕ) (acc : α)
    (hacc : acc = ∑ i ∈ range (k * T), ext0 g i) :
    acc + ∑ q : Fin T, (if h : k * T + q.val < n then g ⟨k * T + q.val, h⟩ else 0)
      = ∑ i ∈ range ((k + 1) * T), ext0 g i := by
  have h1 : ∑ q : Fin T, (if h : k * T + q.val < n then g ⟨k * T + q.val, h⟩ else 0)
      = ∑ q ∈ range T, ext0 g (k * T + q) := by
    rw [Finset.sum_range]; rfl
  rw [hacc, h1, sum_range_succ_block]

/-- The accumulator before any block: the empty sum. -/
theorem sum_blocks_zero {n T : ℕ} (g : Fin n → α) : (0 : α) = ∑ i ∈ range (0 * T), ext0 g i := by
  simp

/-- After the last block (`n ≤ B * T`) the accumulator is the whole sum. -/
theorem sum_blocks_last {n B T : ℕ} (hn : n ≤ B * T) (g : Fin n → α) :
    ∑ i ∈ range (B * T), ext0 g i = ∑ p : Fin n, g p := sum_range_ext0 g hn

/-! ## Masked products in the extended reals -/

/-- In the extended reals zero times anything is zero: `0 * ⊤ = 0 * ⊥ = 0` by Mathlib's convention. -/
theorem ereal_zero_mul (d : EReal) : (0 : EReal) * d = 0 := zero_mul d

/-- A factor masked to zero makes the product zero whatever the other factor is. -/
theorem ereal_ite_zero_mul (c : Prop) [Decidable c] (a d : EReal) :
    (if c then a else 0) * d = if c then a * d else 0 := by
  split_ifs
  · rfl
  · exact zero_mul d

/-- The same with the mask as a dependent `if`. -/
theorem ereal_dite_zero_mul (c : Prop) [Decidable c] (a : c → EReal) (d : EReal) :
    (if h : c then a h else 0) * d = if h : c then a h * d else 0 := by
  split_ifs
  · rfl
  · exact zero_mul d

/-- **A blocked sum of masked products.**  With `n ≤ B * T`: the first factor is `a` at position `kk * T + q`,
    masked to zero at or past `n`; the second factor `d kk q` is ANY value past `n` and `w` at the position below
    `n`.  The blocked sum is `∑ₚ a p * w p`. -/
theorem sum_blocks_masked_mul {n B T : ℕ} (hn : n ≤ B * T) (a w : Fin n → EReal) (d : Fin B → Fin T → EReal)
    (hd : ∀ (kk : Fin B) (q : Fin T) (h : kk.val * T + q.val < n), d kk q = w ⟨kk.val * T + q.val, h⟩) :
    ∑ kk : Fin B, ∑ q : Fin T, (if h : kk.val * T + q.val < n then a ⟨kk.val * T + q.val, h⟩ else 0) * d kk q
      = ∑ p : Fin n, a p * w p := by
  rw [← sum_blocks hn (fun p => a p * w p)]
  refine Finset.sum_congr rfl (fun kk _ => Finset.sum_congr rfl (fun q _ => ?_))
  rw [ereal_dite_zero_mul]
  by_cases h : kk.val * T + q.val < n
  · rw [dif_pos h, dif_pos h, hd kk q h]
  · rw [dif_neg h, dif_neg h]

end Cert.LibBlockedSum
-- ==== Proof.Blocks.lean ====
/-
  The sum of 262144 terms as one program takes it: 64 blocks of 4096 consecutive terms, the blocks of each half
  (32 blocks, 131072 terms) added one after the other into an accumulator that starts from zero, the two halves'
  accumulators added at the end.  `acc g n` is what the accumulator of block `n`'s half holds after block `n`;
  `acc_first` / `acc_next` are the two ways a block enters it, `total` the sum of the two finished halves.
-/
import proofs.«411633_j41197326303939_3_alg».proof.Proof.LibBlockedSum

noncomputable section

open scoped BigOperators
open Finset Cert.LibBlockedSum

namespace Cert.CenterDist

variable (g : Fin 262144 → EReal)

/-- Block `k`: the 4096 terms from position `k * 4096` on. -/
def blockSum (k : ℕ) : EReal :=
  ∑ q : Fin 4096, (if h : k * 4096 + q.val < 262144 then g ⟨k * 4096 + q.val, h⟩ else 0)

/-- The same over a range, with the terms extended by zero past the end. -/
theorem blockSum_eq (k : ℕ) : blockSum g k = ∑ q ∈ range 4096, ext0 g (k * 4096 + q) := by
  unfold blockSum
  rw [Finset.sum_range]
  rfl

/-- The accumulator of block `n`'s half after block `n`: the terms of that half up to the end of block `n`. -/
def acc (n : ℕ) : EReal := ∑ i ∈ range ((n % 32 + 1) * 4096), ext0 g (n / 32 * 131072 + i)

/-- The first block of a half enters an accumulator reset to zero. -/
theorem acc_first (n : ℕ) (h : n % 32 = 0) : (0 : EReal) + blockSum g n = acc g n := by
  have e : n * 4096 = n / 32 * 131072 := by omega
  rw [zero_add, blockSum_eq]
  unfold acc
  rw [h, e]

/-- A later block is added to what the blocks before it left. -/
theorem acc_next (n : ℕ) (h : n % 32 ≠ 0) : acc g (n - 1) + blockSum g n = acc g n := by
  have h1 : (n - 1) / 32 = n / 32 := by omega
  have h2 : (n - 1) % 32 + 1 = n % 32 := by omega
  have e : ∀ q, n * 4096 + q = n / 32 * 131072 + (n % 32 * 4096 + q) := fun q => by omega
  rw [blockSum_eq]
  unfold acc
  rw [h1, h2]
  refine Eq.trans ?_ (sum_range_succ_block (fun i => ext0 g (n / 32 * 131072 + i)) 4096 (n % 32)).symm
  refine congrArg (_ + ·) (Finset.sum_congr rfl fun q _ => ?_)
  rw [e q]

/-- After its last block a half's accumulator holds the half's 131072 terms. -/
theorem acc_last (c : ℕ) : acc g (c * 32 + 31) = ∑ i ∈ range 131072, ext0 g (c * 131072 + i) := by
  unfold acc
  rw [show (c * 32 + 31) % 32 + 1 = 32 from by omega, show (c * 32 + 31) / 32 = c from by omega]

/-- The two finished halves together are the whole sum. -/
theorem total : ∑ c : Fin 2, acc g (c.val * 32 + 31) = ∑ p : Fin 262144, g p := by
  rw [← Finset.sum_range (fun c => acc g (c * 32 + 31)), Finset.sum_congr rfl (fun c _ => acc_last g c),
    sum_blocks_range (ext0 g) 131072 2]
  exact sum_range_ext0 g (le_refl _)

end Cert.CenterDist

end
-- ==== Proof.KernelAcc.lean ====
/-
  What the output's staging buffer holds after each grid point, in closed form.  Point `t` of the 64 reads rows
  `4096·t … 4096·t + 4095` of both input arrays, so its block contributes block `t` of the 262144 per-row terms
  `g`; the buffer is reset at the first point of each half of the grid and carried otherwise, so after point `n` it
  holds the accumulated terms of `n`'s half up to block `n` (`acc g n`) — by induction on the point.
-/
import proofs.«411633_j41197326303939_3_alg».proof.Proof.Gen.KernelIdeal.Frame
import proofs.«411633_j41197326303939_3_alg».proof.Proof.KernelBody
import proofs.«411633_j41197326303939_3_alg».proof.Proof.Blocks
import Idealize.ShloMosaic.Lib.Pipeline.Value

noncomputable section

open Idealize.ShloMosaic Idealize.ShloMosaic.TcCoe Idealize.SL.Sem
open Idealize.ShloMosaic.Pipeline (Dat)

namespace Cert.KernelIdeal.Acc

open Cert.KernelIdeal Cert.KernelIdeal.Gen Cert.KernelIdeal.Body Cert.CenterDist Idealize.ShloMosaic.ValueIdx

variable (m : (ℓ : Loc nD τ sig) → Buf (Elt Ideal) ℓ)

/-- The two arrays the region reads as it finds them, and their blocks at a point, at their literal types. -/
abbrev xarr (c : Dev nD) : S262144x64.Idx → EReal := V m c main_arg0
abbrev carr (c : Dev nD) : S262144x64.Idx → EReal := V m c main_v1
abbrev xblk (c : Dev nD) (t : Fin cfg0.N) : S4096x64.Idx → EReal := iblk m c 0 t
abbrev cblk (c : Dev nD) (t : Fin cfg0.N) : S4096x64.Idx → EReal := iblk m c 1 t

/-- Row `i`'s term: its clipped distance to the row the second array holds for it. -/
def g (c : Dev nD) (i : Fin 262144) : EReal :=
  rowDist (fun d => xarr m c (ix2 i d)) (fun d => carr m c (ix2 i d))

/-- Both input windows sit at block row `t`, column block 0, at point `t`. -/
theorem idx_facts : ∀ t : Fin cfg0.N, win0_0.index t 0 = t.val ∧ win0_0.index t 1 = 0 ∧ win0_1.index t 0 = t.val ∧ win0_1.index t 1 = 0 :=
  (by decide +kernel : ∀ t : Fin grid0.N, win0_0.index t 0 = t.val ∧ win0_0.index t 1 = 0 ∧ win0_1.index t 0 = t.val ∧ win0_1.index t 1 = 0)

/-- Entry `(r, d)` of the first block at point `t` is row `4096·t + r` of the first array. -/
theorem xblk_apply (c : Dev nD) (t : Fin cfg0.N) (r : Fin 4096) (d : Fin 64) (h : t.val * 4096 + r.val < 262144) :
    xblk m c t (ix2 r d) = xarr m c (ix2 ⟨t.val * 4096 + r.val, h⟩ d) := by
  show iblk m c 0 t (ix2 r d) = _
  unfold iblk
  rw [View.read_apply]
  show V m c main_arg0 _ = V m c main_arg0 _
  refine congrArg (V m c main_arg0) (funext fun a => Fin.ext ?_)
  match a with
  | ⟨0, _⟩ =>
    show win0_0.index t 0 * 4096 + 1 * r.val = t.val * 4096 + r.val
    rw [(idx_facts t).1]; omega
  | ⟨1, _⟩ =>
    show win0_0.index t 1 * 64 + 1 * d.val = d.val
    rw [(idx_facts t).2.1]; omega

/-- The same for the second block. -/
theorem cblk_apply (c : Dev nD) (t : Fin cfg0.N) (r : Fin 4096) (d : Fin 64) (h : t.val * 4096 + r.val < 262144) :
    cblk m c t (ix2 r d) = carr m c (ix2 ⟨t.val * 4096 + r.val, h⟩ d) := by
  show iblk m c 1 t (ix2 r d) = _
  unfold iblk
  rw [View.read_apply]
  show V m c main_v1 _ = V m c main_v1 _
  refine congrArg (V m c main_v1) (funext fun a => Fin.ext ?_)
  match a with
  | ⟨0, _⟩ =>
    show win0_1.index t 0 * 4096 + 1 * r.val = t.val * 4096 + r.val
    rw [(idx_facts t).2.2.1]; omega
  | ⟨1, _⟩ =>
    show win0_1.index t 1 * 64 + 1 * d.val = d.val
    rw [(idx_facts t).2.2.2]; omega

/-- Point `t`'s block sum is block `t` of the terms. -/
theorem block_eq (c : Dev nD) (t : Fin cfg0.N) : blockOf (xblk m c t) (cblk m c t) = blockSum (g m c) t.val := by
  have hN : t.val < 64 := lt_of_lt_of_eq t.isLt (show cfg0.N = 64 from N_0)
  unfold blockOf blockSum
  refine Finset.sum_congr rfl fun r _ => ?_
  have h : t.val * 4096 + r.val < 262144 := by have := r.isLt; omega
  rw [dif_pos h]
  unfold g
  exact congrArg₂ rowDist (funext fun d => xblk_apply m c t r d h) (funext fun d => cblk_apply m c t r d h)

/-- After point `n` the output's staging buffer holds the accumulated terms of `n`'s half up to block `n`. -/
theorem outsAt_eq (c : Dev nD) : ∀ (n : ℕ) (h : n < cfg0.N) (j : S1x1x1.Idx), outsAt0 m c n h j = acc (g m c) n
  | 0, h, j => by
    have e := (outsAt0_A m c ⟨0, h⟩ rfl).trans
      (out_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        ((hcond0_0 ⟨0, h⟩).mpr rfl) (iblk m c 0 ⟨0, h⟩) (iblk m c 1 ⟨0, h⟩))
    refine (congrFun e j).trans ?_
    refine (pay2_apply (xblk m c ⟨0, h⟩) (cblk m c ⟨0, h⟩) (k0_pay1 (F := Ideal)) j).trans ?_
    rw [pay1_apply, block_eq, show zero = 0 from Ideal.ofBits_zero_f32]
    exact acc_first (g m c) 0 rfl
  | n + 1, h, j => by
    by_cases h0 : (n + 1) % 32 = 0
    · have e := (outsAt0_A m c ⟨n + 1, h⟩ h0).trans
        (out_A (F := Ideal) c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) ((hcond0_0 ⟨n + 1, h⟩).mpr h0) (iblk m c 0 ⟨n + 1, h⟩) (iblk m c 1 ⟨n + 1, h⟩))
      refine (congrFun e j).trans ?_
      refine (pay2_apply (xblk m c ⟨n + 1, h⟩) (cblk m c ⟨n + 1, h⟩) (k0_pay1 (F := Ideal)) j).trans ?_
      rw [pay1_apply, block_eq, show zero = 0 from Ideal.ofBits_zero_f32]
      exact acc_first (g m c) (n + 1) h0
    · have e := (outsAt0_B m c ⟨n + 1, h⟩ h0).trans
        (out_B (F := Ideal) c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) (fun hh => h0 ((hcond0_0 ⟨n + 1, h⟩).mp hh)) (iblk m c 0 ⟨n + 1, h⟩) (iblk m c 1 ⟨n + 1, h⟩)
          (outsAt0 m c n (Nat.lt_of_succ_lt h)))
      refine (congrFun e j).trans ?_
      refine (pay2_apply (xblk m c ⟨n + 1, h⟩) (cblk m c ⟨n + 1, h⟩) (outsAt0 m c n (Nat.lt_of_succ_lt h)) j).trans ?_
      refine (congrArg₂ (· + ·) (outsAt_eq c n (Nat.lt_of_succ_lt h) j) (block_eq m c ⟨n + 1, h⟩)).trans ?_
      exact acc_next (g m c) (n + 1) h0

end Cert.KernelIdeal.Acc

end
-- ==== Proof.Gathers.lean ====
/-
  The two gathers, each read at a result index.

  * The kernel's host side takes whole rows of the table of centres: result entry `(i, d)` is the table at
    `(the start index of row i, read signed and clamped into [0, 999], d)`.
  * The reference picks one entry per row of the [262144, 1000] distance matrix: result entry `(i, 0)` is the
    matrix at `(i, the start index of row i, read signed and clamped into [0, 999])`.
-/
import proofs.«411633_j41197326303939_3_alg».proof.KernelIdeal
import proofs.«411633_j41197326303939_3_alg».proof.ReferenceIdeal
import Idealize.ShloMosaic.Lib.ValueIdx

noncomputable section

open Idealize.ShloMosaic Idealize.ShloMosaic.ValueIdx

namespace Cert.KernelIdeal

variable [Facts₀]

/-- The start-indices entry the row gather reads for result row `p`. -/
abbrev rowStart (p : Fin 262144) : S262144x1.Idx := ix2 p (0 : Fin 1)

/-- The row gather at `(p, q)`. -/
theorem rows_apply {α : Type} (x : S1000x64.Idx → α) (idx : IVec S262144x1 32) (p : Fin 262144) (q : Fin 64) :
    Host.gather gather_S1000x64_S262144x1_S262144x64_1_0_n_n_0_1_164 x idx (ix2 p q)
      = x (ix2 (⟨min (idx (rowStart p)).toInt.toNat 999, by omega⟩ : Fin 1000) q) := by
  unfold Host.gather
  refine congrArg x (funext fun a => Fin.ext ?_)
  match a with
  | ⟨0, _⟩ =>
    show gather_S1000x64_S262144x1_S262144x64_1_0_n_n_0_1_164.start (ix2 p q) idx 0
        + gather_S1000x64_S262144x1_S262144x64_1_0_n_n_0_1_164.batchCoord (ix2 p q) 0
        + gather_S1000x64_S262144x1_S262144x64_1_0_n_n_0_1_164.offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1000x64_S262144x1_S262144x64_1_0_n_n_0_1_164.startIndexMap from List.mem_singleton.mpr rfl)]
    have hsi : gather_S1000x64_S262144x1_S262144x64_1_0_n_n_0_1_164.siIdx (ix2 p q)
        ⟨List.idxOf (0 : Fin 2) gather_S1000x64_S262144x1_S262144x64_1_0_n_n_0_1_164.startIndexMap,
          List.idxOf_lt_length_iff.2 (List.mem_singleton.mpr rfl)⟩ = rowStart p := by
      funext b; refine Fin.ext ?_
      match b with
      | ⟨0, _⟩ => rfl
      | ⟨1, _⟩ => rfl
    rw [hsi]
    rfl
  | ⟨1, _⟩ =>
    show gather_S1000x64_S262144x1_S262144x64_1_0_n_n_0_1_164.start (ix2 p q) idx 1
        + gather_S1000x64_S262144x1_S262144x64_1_0_n_n_0_1_164.batchCoord (ix2 p q) 1
        + gather_S1000x64_S262144x1_S262144x64_1_0_n_n_0_1_164.offCoord (ix2 p q) 1 = _
    rw [GatherDims.batchCoord_eq_zero _ _ _ List.not_mem_nil]
    unfold GatherDims.start
    rw [dif_neg (show (1 : Fin 2) ∉ gather_S1000x64_S262144x1_S262144x64_1_0_n_n_0_1_164.startIndexMap from
      fun h => absurd (List.mem_singleton.mp h) (by decide))]
    simp only [Nat.zero_add]
    unfold GatherDims.offCoord
    rw [dif_pos (show (1 : Fin 2) ∈ gather_S1000x64_S262144x1_S262144x64_1_0_n_n_0_1_164.sKept from
      (GatherDims.mem_sKept _ _).mpr ⟨fun h => absurd (List.mem_singleton.mp h) (by decide), List.not_mem_nil⟩)]
    rfl

end Cert.KernelIdeal

namespace Cert.ReferenceIdeal

variable [Facts₀]

/-- The start-indices entry the per-row pick reads for result row `p`. -/
abbrev pickStart (p : Fin 262144) : S262144x1x1.Idx := ix3 p (0 : Fin 1) (0 : Fin 1)

/-- The per-row pick at `(p, 0)`. -/
theorem pick_apply {α : Type} (x : S262144x1000.Idx → α) (idx : IVec S262144x1x1 32) (p : Fin 262144) :
    Host.gather gather_S262144x1000_S262144x1x1_S262144x1_n_1_0_0_1_2_11 x idx (ix2 p (0 : Fin 1))
      = x (ix2 p (⟨min (idx (pickStart p)).toInt.toNat 999, by omega⟩ : Fin 1000)) := by
  unfold Host.gather
  refine congrArg x (funext fun a => Fin.ext ?_)
  match a with
  | ⟨0, _⟩ =>
    show gather_S262144x1000_S262144x1x1_S262144x1_n_1_0_0_1_2_11.start (ix2 p (0 : Fin 1)) idx 0
        + gather_S262144x1000_S262144x1x1_S262144x1_n_1_0_0_1_2_11.batchCoord (ix2 p (0 : Fin 1)) 0
        + gather_S262144x1000_S262144x1x1_S262144x1_n_1_0_0_1_2_11.offCoord (ix2 p (0 : Fin 1)) 0 = _
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    unfold GatherDims.batchCoord
    rw [dif_pos (show (0 : Fin 2) ∈ gather_S262144x1000_S262144x1x1_S262144x1_n_1_0_0_1_2_11.operandBatchingDims from List.mem_singleton.mpr rfl)]
    rfl
  | ⟨1, _⟩ =>
    show gather_S262144x1000_S262144x1x1_S262144x1_n_1_0_0_1_2_11.start (ix2 p (0 : Fin 1)) idx 1
        + gather_S262144x1000_S262144x1x1_S262144x1_n_1_0_0_1_2_11.batchCoord (ix2 p (0 : Fin 1)) 1
        + gather_S262144x1000_S262144x1x1_S262144x1_n_1_0_0_1_2_11.offCoord (ix2 p (0 : Fin 1)) 1 = _
    rw [GatherDims.batchCoord_eq_zero _ _ _ (show (1 : Fin 2) ∉ gather_S262144x1000_S262144x1x1_S262144x1_n_1_0_0_1_2_11.operandBatchingDims from
        fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S262144x1000_S262144x1x1_S262144x1_n_1_0_0_1_2_11.startIndexMap from List.mem_singleton.mpr rfl)]
    have hsi : gather_S262144x1000_S262144x1x1_S262144x1_n_1_0_0_1_2_11.siIdx (ix2 p (0 : Fin 1))
        ⟨List.idxOf (1 : Fin 2) gather_S262144x1000_S262144x1x1_S262144x1_n_1_0_0_1_2_11.startIndexMap,
          List.idxOf_lt_length_iff.2 (List.mem_singleton.mpr rfl)⟩ = pickStart p := by
      funext b; refine Fin.ext ?_
      match b with
      | ⟨0, _⟩ => rfl
      | ⟨1, _⟩ => rfl
      | ⟨2, _⟩ => rfl
    rw [hsi]
    rfl

end Cert.ReferenceIdeal

end
-- ==== Proof.KernelPrefix.lean ====
/-
  What the kernel's host side hands the pallas_call as its second operand: the rows of the table of centres that the
  labels select.  The labels are first clamped to `[0, 999]`, then normalised (1000 added where negative), checked
  in bounds, used as start indices of a row gather, and an out-of-bounds row is filled with a constant.  With every
  label already in `[0, 1000)` the clamp and the normalisation leave it alone and the bounds check passes, so entry
  `(p, q)` is the table at `(label p, q)`.
-/
import proofs.«411633_j41197326303939_3_alg».proof.Proof.Gen.KernelIdeal.Frame
import proofs.«411633_j41197326303939_3_alg».proof.Proof.Spec
import proofs.«411633_j41197326303939_3_alg».proof.Proof.Gathers
import Idealize.ShloMosaic.Lib.StableHlo.Run
import Idealize.ShloMosaic.Lib.Pipeline.Value
import Idealize.ShloMosaic.Lib.Affine

noncomputable section

namespace Cert.KernelIdeal.Prefix

open Cert.KernelIdeal Cert.KernelIdeal.Gen Cert.CenterDist
open Idealize.ShloMosaic Idealize.ShloMosaic.TcCoe Idealize.ShloMosaic.ValueIdx Idealize.ShloMosaic.StableHlo Idealize.SL.Sem

variable {F : FTy → Type} [FloatOps F]

/-- The labels clamped to `[0, 999]`. -/
def clamped (lab : IVec S262144 32) : IVec S262144 32 :=
  minsi (broadcastInDim S262144 ![] bcast_S_S262144 (id (constantI S_ 32 999#32)))
    (maxsi (broadcastInDim S262144 ![] bcast_S_S262144 (id (constantI S_ 32 0#32))) lab)

/-- The gather's start indices: the clamped labels with 1000 added where negative, as a column. -/
def startIdx (lab : IVec S262144 32) : IVec S262144x1 32 :=
  broadcastInDim S262144x1 ![0] bcast_S262144_S262144x1_0
    (select (cmpi .slt (clamped lab) (broadcastInDim S262144 ![] bcast_S_S262144 (constantI S_ 32 0#32)))
      (addi (clamped lab) (broadcastInDim S262144 ![] bcast_S_S262144 (constantI S_ 32 1000#32)))
      (clamped lab))

/-- The in-bounds mask of the start indices, per row. -/
def inb (lab : IVec S262144 32) : IVec S262144 1 :=
  Host.reduce IntOp.andi
    (andi (cmpi .sge (startIdx lab) (broadcastInDim S262144x1 ![] bcast_S_S262144x1 (constantI S_ 32 0#32)))
      (cmpi .sle (startIdx lab)
        (broadcastInDim S262144x1 ![0, 1] bcast_S1x1_S262144x1_0_1 (broadcastInDim S1x1 ![1] bcast_S1_S1x1_1 (constantI S1 32 999#32)))))
    (constantI S_ 1 1#1) reducesTo_S262144x1_S262144_d1 h_S_

/-- The selected rows: the gathered rows where in bounds, the fill constant elsewhere. -/
def csel (lab : IVec S262144 32) (cen : FVec F S1000x64 .f32) : FVec F S262144x64 .f32 :=
  select (broadcastInDim S262144x64 ![0] bcast_S262144_S262144x64_0 (inb lab))
    (Host.gather gather_S1000x64_S262144x1_S262144x64_1_0_n_n_0_1_164 cen (startIdx lab))
    (broadcastInDim S262144x64 ![] bcast_S_S262144x64 (constant S_ .f32 0x7FC00000#32))

/-- The region finds its second operand at the selected rows of the launch contents. -/
theorem csel_eq (m : (ℓ : Loc nD τ sig) → Buf (Elt F) ℓ) (c : Dev nD) :
    V m c main_v1 = csel (F := F) (m ((c : Thread nD τ).loc main_arg1)) (m ((c : Thread nD τ).loc main_arg2)) := by
  dsimp only [V, V0]
  simp only [hostOps0, hostOps0_1, hostOps0_2, List.flatten_cons, List.flatten_nil, List.append_nil, List.cons_append,
    List.nil_append]
  after_results_simp <;> (try simp only [TRef.ofBuf, TRef.toBuf, cast_eq]) <;> rfl

/-! ## Read at an index, with the labels in range -/

/-- A word in `[0, 1000)` is its own clamp to `[0, 999]`. -/
theorem clamp_id (l : BitVec 32) (h0 : 0 ≤ l.toInt) (h1 : l.toInt < 1000) :
    IntOp.minsi 999#32 (IntOp.maxsi 0#32 l) = l := by
  have z0 : (0#32 : BitVec 32).toInt = 0 := by decide
  have z9 : (999#32 : BitVec 32).toInt = 999 := by decide
  have hm : IntOp.maxsi 0#32 l = l := by
    unfold IntOp.maxsi
    rw [if_neg]
    intro h
    have := BitVec.slt_iff_toInt_lt.1 h
    omega
  rw [hm]
  unfold IntOp.minsi
  rw [if_neg]
  intro h
  have := BitVec.slt_iff_toInt_lt.1 h
  omega

variable (lab : IVec S262144 32) (hl : ∀ i, 0 ≤ (lab i).toInt ∧ (lab i).toInt < 1000)
include hl

theorem clamped_apply (i : S262144.Idx) : clamped lab i = lab i :=
  clamp_id (lab i) (hl i).1 (hl i).2

/-- The start index of every position of the column is the row's label. -/
theorem startIdx_apply (i : S262144x1.Idx) : startIdx lab i = lab (ix1 (i 0)) := by
  unfold startIdx
  refine (broadcastInDim_apply _ bcast_S262144_S262144x1_0 _ i (ix1 (i 0)) (fun a => match a with
    | ⟨0, _⟩ => by show (i 0).val = if (262144 : Nat) = 1 then 0 else (i 0).val; rw [if_neg (by decide)])).trans ?_
  show Scalar.select (IntOp.cmpi .slt (clamped lab (ix1 (i 0))) 0#32) (IntOp.addi (clamped lab (ix1 (i 0))) 1000#32)
    (clamped lab (ix1 (i 0))) = _
  rw [clamped_apply lab hl]
  have hneg : IntOp.cmpi .slt (lab (ix1 (i 0))) 0#32 = 0#1 := by
    apply eq_zero_of_ne_one
    intro h1
    have := IntOp.cmpi_slt.1 h1
    have h0 := (hl (ix1 (i 0))).1
    have z0 : (0#32 : BitVec 32).toInt = 0 := by decide
    omega
  rw [hneg, select_zero]

/-- Every start index is in bounds. -/
theorem inb_apply (p : Fin 262144) : inb lab (ix1 p) = 1#1 := by
  unfold inb
  rw [Host.reduce_eq_foldl]
  have hall : ∀ i : S262144x1.Idx,
      andi (cmpi .sge (startIdx lab) (broadcastInDim S262144x1 ![] bcast_S_S262144x1 (constantI S_ 32 0#32)))
        (cmpi .sle (startIdx lab)
          (broadcastInDim S262144x1 ![0, 1] bcast_S1x1_S262144x1_0_1 (broadcastInDim S1x1 ![1] bcast_S1_S1x1_1 (constantI S1 32 999#32)))) i
        = 1#1 := fun i => by
    show IntOp.andi (IntOp.cmpi .sge (startIdx lab i) 0#32) (IntOp.cmpi .sle (startIdx lab i) 999#32) = 1#1
    rw [startIdx_apply lab hl]
    have h := hl (ix1 (i 0))
    have z0 : (0#32 : BitVec 32).toInt = 0 := by decide
    have z9 : (999#32 : BitVec 32).toInt = 999 := by decide
    exact IntOp.andi_eq_one.2 ⟨IntOp.cmpi_sge.2 (by omega), IntOp.cmpi_sle.2 (by omega)⟩
  generalize ((List.finRange S262144x1.numel).map S262144x1.rowMajor.symm).filter _ = l
  generalize (andi (cmpi .sge (startIdx lab) (broadcastInDim S262144x1 ![] bcast_S_S262144x1 (constantI S_ 32 0#32)))
        (cmpi .sle (startIdx lab)
          (broadcastInDim S262144x1 ![0, 1] bcast_S1x1_S262144x1_0_1 (broadcastInDim S1x1 ![1] bcast_S1_S1x1_1 (constantI S1 32 999#32))))) = f at hall
  show l.foldl (fun r i => IntOp.andi r (f i)) 1#1 = 1#1
  induction l with
  | nil => rfl
  | cons a l ih => rw [List.foldl_cons, hall a]; exact ih

/-- Entry `(p, q)` of the selected rows is the table at `(label p, q)`. -/
theorem csel_apply (cen : S1000x64.Idx → EReal) (p : Fin 262144) (q : Fin 64) :
    csel (F := Ideal) lab cen (ix2 p q) = cen (ix2 (cls (lab (ix1 p))) q) := by
  unfold csel
  have hmask : broadcastInDim S262144x64 ![0] bcast_S262144_S262144x64_0 (inb lab) (ix2 p q) = 1#1 :=
    (broadcastInDim_apply _ bcast_S262144_S262144x64_0 _ (ix2 p q) (ix1 p) (fun a => match a with
      | ⟨0, _⟩ => by show p.val = if (262144 : Nat) = 1 then 0 else p.val; rw [if_neg (by decide)])).trans (inb_apply lab hl p)
  refine (select_apply _ _ _ (ix2 p q)).trans ?_
  rw [hmask, select_one, rows_apply]
  have ek : (⟨min (startIdx lab (rowStart p)).toInt.toNat 999, by omega⟩ : Fin 1000) = cls (lab (ix1 p)) := by
    apply Fin.ext
    show min (startIdx lab (rowStart p)).toInt.toNat 999 = min (lab (ix1 p)).toInt.toNat 999
    rw [startIdx_apply lab hl]
  rw [ek]

end Cert.KernelIdeal.Prefix

end
-- ==== Proof.KernelValue.lean ====
/-
  The kernel's result.  The output array has one entry per half of the grid, written back once, after the half's last
  point, with that half's accumulated terms; the host then adds the two entries from zero and divides by the row count.
  The two halves together are all 262144 terms, each the clipped distance of a row of `x` to the centre its label
  selects (the second operand's rows are those centres when the labels are in range): the mean of `Spec.lean`.
-/
import proofs.«411633_j41197326303939_3_alg».proof.Proof.KernelAcc
import proofs.«411633_j41197326303939_3_alg».proof.Proof.KernelPrefix
import Idealize.ShloMosaic.Lib.StableHlo.Run

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.KernelIdeal.Body Cert.KernelIdeal.Acc Cert.KernelIdeal.Prefix Cert.CenterDist
open Idealize.ShloMosaic.ValueIdx Idealize.ShloMosaic.StableHlo

variable (m : (ℓ : Loc nD τ sig) → Buf (Elt Ideal) ℓ) (ρ : Dev nD → PrngReg)

/-- The output window sits at block `t / 32` along its first axis at point `t`. -/
theorem idx2_facts : ∀ t : Fin cfg0.N, win0_2.index t 0 = t.val / 32 ∧ win0_2.index t 1 = 0 ∧ win0_2.index t 2 = 0 :=
  (by decide +kernel : ∀ t : Fin grid0.N, win0_2.index t 0 = t.val / 32 ∧ win0_2.index t 1 = 0 ∧ win0_2.index t 2 = 0)

/-- What the output array ends holding: entry `h` is half `h`'s finished accumulator. -/
def halves (c : Dev nD) : S2x1x1.Idx → EReal := fun i => acc (g m c) ((i 0).val * 32 + 31)

/-- What a flushing point writes back is its block of `halves`. -/
theorem flushed_eq (c : Dev nD) (t : Fin cfg0.N) (hf : (cfg0.win 2).flush t = true) :
    (dats m 0 c).flushed 2 t = ((cfg0.win 2).blk t).view.read (Elt Ideal) (halves m c) := by
  have h31 : t.val % 32 = 31 := (flush0_2 t).mp hf
  show (cfg0.win 2).cut (grid0.coords t) ((dats m 0 c).after 2 t) = _
  rw [after0_2]
  funext j
  show outsAt0 m c t.val t.isLt ((cfg0.win 2).xinj (grid0.coords t) j) = halves m c (((cfg0.win 2).blk t).view.emb j)
  rw [outsAt_eq]
  unfold halves
  have hj : (j 0).val < 1 := (j 0).isLt
  have e : ((((cfg0.win 2).blk t).view.emb j) 0).val = t.val / 32 := by
    show win0_2.index t 0 * 1 + 1 * (j 0).val = t.val / 32
    rw [(idx2_facts t).1]; omega
  rw [e]
  congr 1
  omega

/-- Every entry of the output array is written back by the last point of its half. -/
theorem final (c : Dev nD) : (dats m 0 c).arrAt 2 cfg0.N = halves m c :=
  (dats m 0 c).arrAt_eq_of_cover 2 (halves m c) (flushed_eq m c) fun i => by
    have hi0 : (i 0).val < 2 := (i 0).isLt
    have hi1 : (i 1).val < 1 := (i 1).isLt
    have hi2 : (i 2).val < 1 := (i 2).isLt
    have hN : cfg0.N = 64 := N_0
    have hlt : (i 0).val * 32 + 31 < cfg0.N := by rw [hN]; omega
    obtain ⟨e0, e1, e2⟩ := idx2_facts ⟨(i 0).val * 32 + 31, hlt⟩
    refine ⟨⟨(i 0).val * 32 + 31, hlt⟩, (flush0_2 _).mpr (by show ((i 0).val * 32 + 31) % 32 = 31; omega), ?_⟩
    show i ∈ ((View.whole main_v2).slice (win0_2.rect ⟨(i 0).val * 32 + 31, hlt⟩)).set
    rw [View.set_slice_whole, Rect.mem_set_unit]
    intro a
    match a with
    | ⟨0, _⟩ =>
      show win0_2.index ⟨(i 0).val * 32 + 31, hlt⟩ 0 * 1 ≤ (i 0).val ∧ (i 0).val < win0_2.index ⟨(i 0).val * 32 + 31, hlt⟩ 0 * 1 + 1
      rw [e0]; show ((i 0).val * 32 + 31) / 32 * 1 ≤ (i 0).val ∧ (i 0).val < ((i 0).val * 32 + 31) / 32 * 1 + 1; omega
    | ⟨1, _⟩ =>
      show win0_2.index ⟨(i 0).val * 32 + 31, hlt⟩ 1 * 1 ≤ (i 1).val ∧ (i 1).val < win0_2.index ⟨(i 0).val * 32 + 31, hlt⟩ 1 * 1 + 1
      rw [e1]; omega
    | ⟨2, _⟩ =>
      show win0_2.index ⟨(i 0).val * 32 + 31, hlt⟩ 2 * 1 ≤ (i 2).val ∧ (i 2).val < win0_2.index ⟨(i 0).val * 32 + 31, hlt⟩ 2 * 1 + 1
      rw [e2]; omega

/-- The two halves, as an index set. -/
def halfEquiv : Fin 2 ≃ S2x1x1.Idx where
  toFun h := ix3 h (0 : Fin 1) (0 : Fin 1)
  invFun i := i 0
  left_inv _ := rfl
  right_inv i := funext fun a => Fin.ext (by
    match a with
    | ⟨0, _⟩ => rfl
    | ⟨1, _⟩ => (show 0 = (i 1).val; have h : (i 1).val < 1 := (i 1).isLt; omega)
    | ⟨2, _⟩ => (show 0 = (i 2).val; have h : (i 2).val < 1 := (i 2).isLt; omega))

/-- The host's tail over the finished output array: the sum of all the terms from zero, over the row count. -/
theorem tail_eq (c : Dev nD) :
    Pipeline.afterTail₀ cfgs (dats m) 0 (V0 m) [hostOps1] c main_v4
      = fun _ => Ideal.div (zero + ∑ p : Fin 262144, g m c p) count := by
  unfold Pipeline.afterTail₀
  show StableHlo.after hostOps1 _ (Proc.devRef .tc main_v4) = _
  after_results
  rw [Pipeline.withArrays_arr spec0 launch0.win.arr_inj c _ _ 2, final m c]
  funext i
  show Ideal.div (Ideal.hostReduceAdd reducesTo_S2x1x1_S_d0_1_2 (halves m c) zero i) count = _
  rw [Ideal.hostReduceAdd_total reducesTo_S2x1x1_S_d0_1_2 (fun b => b.elim0)]
  refine congrArg (fun s => Ideal.div (zero + s) count) ?_
  rw [← Equiv.sum_comp halfEquiv (halves m c)]
  exact total (g m c)

/-- With the labels in range each term is the row's clipped distance to its class's centre. -/
theorem g_eq (c : Dev nD) (x : S262144x64.Idx → EReal) (lab : IVec S262144 32) (cen : S1000x64.Idx → EReal)
    (ex : m ((c : Thread nD τ).loc main_arg0) = x) (el : m ((c : Thread nD τ).loc main_arg1) = lab)
    (ec : m ((c : Thread nD τ).loc main_arg2) = cen)
    (hl : ∀ i, 0 ≤ (lab i).toInt ∧ (lab i).toInt < 1000) (p : Fin 262144) :
    g m c p = term x lab cen p := by
  unfold g term
  refine congrArg₂ rowDist (funext fun d => ?_) (funext fun d => ?_)
  · show V m c main_arg0 (ix2 p d) = _
    rw [V_main_arg0, ex]
  · show V m c main_v1 (ix2 p d) = _
    rw [csel_eq, el, ec]
    exact csel_apply lab hl cen p d

/-- The kernel's run, read: the result is the mean, the three arguments end as launched. -/
theorem run (x : Dev nD → S262144x64.Idx → EReal) (lab : Dev nD → IVec S262144 32) (cen : Dev nD → S1000x64.Idx → EReal)
    (ex : ∀ c : Dev nD, m ((c : Thread nD τ).loc main_arg0) = x c) (el : ∀ c : Dev nD, m ((c : Thread nD τ).loc main_arg1) = lab c)
    (ec : ∀ c : Dev nD, m ((c : Thread nD τ).loc main_arg2) = cen c)
    (hl : ∀ c i, 0 ≤ (lab c i).toInt ∧ (lab c i).toInt < 1000) :
    θ_run defs (onTc (τ := τ) (main (F := Ideal))) ⟨m, fun _ => 0, ρ⟩ (fun r => ∀ c : Dev nD,
      r.2.mem ((c.tc : Thread nD τ).loc main_v4) = (fun _ => mean (x c) (lab c) (cen c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(((h c).2 main_v4 (Pipeline.mem_restRefs_of main_v4 (by decide) (by decide))).trans (tail_eq m c)).trans (by
        unfold mean
        exact funext fun _ => congrArg (fun s => Ideal.div (zero + s) count)
          (Finset.sum_congr rfl fun p _ => g_eq m c (x c) (lab c) (cen c) (ex c) (el c) (ec c) (hl c) p)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Value

end
-- ==== Proof.RefValue.lean ====
/-
  The reference's result is the mean of the clipped distances.

  Its stages are read one at a time.  The distance matrix entry `(p, k)` is `‖x_p‖² + ‖c_k‖² - 2·⟨x_p, c_k⟩`; on finite
  rows that is the squared distance of row `p` to centre `k`.  With every label in `[0, 1000)` the index normalisation
  (add 1000 where negative) leaves the labels alone, the in-bounds mask is 1 everywhere, and the per-row pick reads the
  matrix at `(p, label p)`; then the square root, the two clips, the sum from zero and the division by the row count.
-/
import proofs.«411633_j41197326303939_3_alg».proof.Proof.RefReadP
import proofs.«411633_j41197326303939_3_alg».proof.Proof.Spec
import proofs.«411633_j41197326303939_3_alg».proof.Proof.Gathers
import Idealize.ShloMosaic.Lib.ValueIdxRank1
import Idealize.ShloMosaic.Lib.Affine

noncomputable section

namespace Cert.ReferenceIdeal.RefValue

open Cert.ReferenceIdeal Cert.ReferenceIdeal.Gen Cert.ReferenceIdeal.ReadP Cert.CenterDist
open Idealize.ShloMosaic Idealize.ShloMosaic.ValueIdx

variable (x : S262144x64.Idx → EReal) (lab : S262144.Idx → BitVec 32) (cen : S1000x64.Idx → EReal)

/-- `‖x_p‖²`, started from the zero word, broadcast along the classes. -/
theorem sqx_apply (p : Fin 262144) (k : Fin 1000) :
    val_main_v6 (F := Ideal) x (ix2 p k) = zero + ∑ d : Fin 64, x (ix2 p d) * x (ix2 p d) := by
  rw [val_main_v6_apply, val_main_v2_apply, val_main_v1_apply]
  refine congrArg (zero + ·) (Finset.sum_congr rfl fun d _ => ?_)
  have e : idx_main_v1 (idx_main_v2 (idx_main_v6 (ix2 p k))) d = ix2 p d :=
    funext fun a => Fin.ext (by match a with | ⟨0, _⟩ => rfl | ⟨1, _⟩ => rfl)
  rw [e]
  rfl

/-- `‖c_k‖²`, started from the zero word, broadcast along the rows. -/
theorem sqc_apply (p : Fin 262144) (k : Fin 1000) :
    val_main_v7 (F := Ideal) cen (ix2 p k) = zero + ∑ d : Fin 64, cen (ix2 k d) * cen (ix2 k d) := by
  rw [val_main_v7_apply, val_main_v5_apply, val_main_v4_apply]
  refine congrArg (zero + ·) (Finset.sum_congr rfl fun d _ => ?_)
  have e : idx_main_v4 (idx_main_v5 (idx_main_v7 (ix2 p k))) d = ix2 k d :=
    funext fun a => Fin.ext (by match a with | ⟨0, _⟩ => rfl | ⟨1, _⟩ => rfl)
  rw [e]
  rfl

/-- `⟨x_p, c_k⟩`: the matrix product against the transposed table. -/
theorem dot_apply (p : Fin 262144) (k : Fin 1000) :
    val_main_v10 (F := Ideal) x cen (ix2 p k) = ∑ d : Fin 64, x (ix2 p d) * cen (ix2 k d) := by
  rw [val_main_v10_apply]
  refine Finset.sum_congr rfl fun d _ => ?_
  rw [val_main_v9_apply]
  have el : lidx_main_v10 (ix2 p k) d = ix2 p d :=
    funext fun a => Fin.ext (by match a with | ⟨0, _⟩ => rfl | ⟨1, _⟩ => rfl)
  have er : idx_main_v9 (ridx_main_v10 (ix2 p k) d) = ix2 k d :=
    funext fun a => Fin.ext (by match a with | ⟨0, _⟩ => rfl | ⟨1, _⟩ => rfl)
  rw [el, er]

/-- The distance matrix at `(p, k)` on finite rows: the squared distance of row `p` to centre `k`. -/
theorem distmat_apply (hx : ∀ i, ∃ r : ℝ, x i = r) (hc : ∀ j, ∃ r : ℝ, cen j = r) (p : Fin 262144) (k : Fin 1000) :
    val_main_v13 (F := Ideal) x cen (ix2 p k) = sqDist (xrow x p) (crow cen k) := by
  rw [val_main_v13_apply, val_main_v8_apply, val_main_v12_apply, sqx_apply, sqc_apply, dot_apply, val_main_v11_apply]
  exact expand (xrow x p) (crow cen k) (fun d => hx _) (fun d => hc _)

/-- Labels in range are their own normalised indices, at every position of the start-index array. -/
theorem index_apply (hl : ∀ i, 0 ≤ (lab i).toInt ∧ (lab i).toInt < 1000) (i : S262144x1x1.Idx) :
    val_main_call0_v5 (F := Ideal) lab i = lab (ix1 (i 0)) := by
  rw [val_main_call0_v5_apply, val_main_call0_v4_apply, val_main_v14_apply]
  have e : idx_main_v14 (idx_main_call0_v5 i) = ix1 (i 0) :=
    funext fun a => Fin.ext (by match a with | ⟨0, _⟩ => (show (((i 0).val * 1 + (i 1).val) * 1 + (i 2).val) / 1 = (i 0).val; have h1 : (i 1).val < 1 := (i 1).isLt; have h2 : (i 2).val < 1 := (i 2).isLt; omega))
  rw [e]
  have hneg : val_main_call0_v1 (F := Ideal) lab (idx_main_call0_v5 i) = 0#1 := by
    have hv : val_main_call0_v1 (F := Ideal) lab (idx_main_call0_v5 i) = IntOp.cmpi .slt (lab (ix1 (i 0))) 0#32 := by
      show IntOp.cmpi .slt (val_main_v14 (F := Ideal) lab (idx_main_call0_v5 i)) _ = _
      rw [val_main_v14_apply, e]
      rfl
    rw [hv]
    apply eq_zero_of_ne_one
    intro h1
    have := IntOp.cmpi_slt.1 h1
    have h0 := (hl (ix1 (i 0))).1
    simp at this
    omega
  rw [hneg, select_zero]
  rfl

/-- So the in-bounds mask is 1 at every row. -/
theorem mask_apply (hl : ∀ i, 0 ≤ (lab i).toInt ∧ (lab i).toInt < 1000) (p : Fin 262144) :
    val_main_call0_v12 (F := Ideal) lab (ix2 p (0 : Fin 1)) = 1#1 := by
  unfold val_main_call0_v12
  rw [Host.reduce_eq_foldl]
  have hall : ∀ i : S262144x1x1.Idx, val_main_call0_v11 (F := Ideal) lab i = 1#1 := fun i => by
    rw [val_main_call0_v11_apply, val_main_call0_v7_apply, val_main_call0_v10_apply, index_apply lab hl]
    have h := hl (ix1 (i 0))
    refine IntOp.andi_eq_one.2 ⟨IntOp.cmpi_sge.2 ?_, IntOp.cmpi_sle.2 ?_⟩
    · show (0#32 : BitVec 32).toInt ≤ _
      simpa using h.1
    · show _ ≤ (999#32 : BitVec 32).toInt
      have : (999#32 : BitVec 32).toInt = 999 := by decide
      rw [this]; omega
  generalize ((List.finRange S262144x1x1.numel).map S262144x1x1.rowMajor.symm).filter _ = l
  show l.foldl (fun r i => IntOp.andi r (val_main_call0_v11 (F := Ideal) lab i)) 1#1 = 1#1
  induction l with
  | nil => rfl
  | cons a l ih => rw [List.foldl_cons, hall a]; exact ih

/-- The picked distance of row `p`. -/
theorem picked_apply (hx : ∀ i, ∃ r : ℝ, x i = r) (hc : ∀ j, ∃ r : ℝ, cen j = r)
    (hl : ∀ i, 0 ≤ (lab i).toInt ∧ (lab i).toInt < 1000) (p : Fin 262144) :
    val_main_v16 (F := Ideal) x lab cen (ix1 p) = sqDist (xrow x p) (crow cen (cls (lab (ix1 p)))) := by
  rw [val_main_v16_apply]
  have e : idx_main_v16 (ix1 p) = ix2 p (0 : Fin 1) :=
    funext fun a => Fin.ext (by match a with | ⟨0, _⟩ => (show p.val / 1 = p.val; omega) | ⟨1, _⟩ => rfl)
  rw [e, val_main_v15_apply, mask_apply lab hl, select_one]
  unfold val_main_call0_v13
  rw [pick_apply]
  have ek : (⟨min (val_main_call0_v5 (F := Ideal) lab (pickStart p)).toInt.toNat 999, by omega⟩ : Fin 1000)
      = cls (lab (ix1 p)) := by
    apply Fin.ext
    show min (val_main_call0_v5 (F := Ideal) lab (pickStart p)).toInt.toNat 999 = min (lab (ix1 p)).toInt.toNat 999
    rw [index_apply lab hl]
  rw [ek]
  exact distmat_apply x cen hx hc p _

/-- Row `p`'s clipped distance. -/
theorem clipped_apply (hx : ∀ i, ∃ r : ℝ, x i = r) (hc : ∀ j, ∃ r : ℝ, cen j = r)
    (hl : ∀ i, 0 ≤ (lab i).toInt ∧ (lab i).toInt < 1000) (p : Fin 262144) :
    val_main_v18 (F := Ideal) x lab cen (ix1 p) = term x lab cen p := by
  rw [val_main_v18_apply, val_main_call1_v2_apply, val_main_v17_apply, picked_apply x lab cen hx hc hl p,
    val_main_call1_v4_apply, val_main_call1_v3_apply, val_main_cst_3_apply,
    val_main_call1_v1_apply, val_main_call1_v0_apply, val_main_cst_2_apply]
  rfl

/-- The whole reference: the mean of the clipped distances. -/
theorem result_eq (hx : ∀ i, ∃ r : ℝ, x i = r) (hc : ∀ j, ∃ r : ℝ, cen j = r)
    (hl : ∀ i, 0 ≤ (lab i).toInt ∧ (lab i).toInt < 1000) :
    val_main_v20 (F := Ideal) x lab cen = fun _ => mean x lab cen := by
  funext i
  rw [val_main_v20_apply, val_main_v19_apply, val_main_cst_4_apply, val_main_cst_5_apply]
  unfold mean
  refine congrArg (fun s => Ideal.div (zero + s) count) ?_
  rw [← Equiv.sum_comp (idxEquiv1 (n := 262144)).symm]
  exact Finset.sum_congr rfl fun p _ => clipped_apply x lab cen hx hc hl p

end Cert.ReferenceIdeal.RefValue

end
-- ==== Proof.lean ====
/-
  The certificate of the mean clipped distance of each row of `x` to the centre of its class.

  The kernel gathers the labelled centres on the host, and its pallas_call adds, block by block over a 2 × 32 grid, the
  clipped square roots of `∑ (x - c)²` into one accumulator per half of the grid; the host adds the two and divides
  by 262144.  The reference builds the whole [262144, 1000] matrix `‖x‖² + ‖c‖² - 2·⟨x, c⟩`, picks each row's entry at its
  label, takes the clipped square root and the mean.  Over the extended reals, on finite `x` and centres (the binomial
  identity needs them finite) and labels in `[0, 1000)` (outside that range the kernel clamps where the reference wraps
  or fills), both are `mean x labels centres` of Proof/Spec.lean.

  * the frames of the two kernel programs are the generated ones; the reference's is its run with the result dropped;
  * the ideal pass rewrote nothing, so `preserves` is `True`;
  * `algebraic`: the kernel's run ends at the mean (Proof/KernelValue.lean, over Proof/KernelBody.lean, KernelAcc.lean,
    KernelPrefix.lean), the reference's run at its last stage, which is the mean (Proof/RefValue.lean); the
    precondition is unpacked in Proof/PreFacts.lean.
-/
import proofs.«411633_j41197326303939_3_alg».proof.Defs
import proofs.«411633_j41197326303939_3_alg».proof.Proof.Gen.Kernel
import proofs.«411633_j41197326303939_3_alg».proof.Proof.Gen.Kernel.Skeleton
import proofs.«411633_j41197326303939_3_alg».proof.Proof.Gen.Kernel.Launch
import proofs.«411633_j41197326303939_3_alg».proof.Proof.Gen.Kernel.Points
import proofs.«411633_j41197326303939_3_alg».proof.Proof.Gen.Kernel.Frame
import proofs.«411633_j41197326303939_3_alg».proof.Proof.Gen.KernelIdeal
import proofs.«411633_j41197326303939_3_alg».proof.Proof.Gen.KernelIdeal.Skeleton
import proofs.«411633_j41197326303939_3_alg».proof.Proof.Gen.KernelIdeal.Launch
import proofs.«411633_j41197326303939_3_alg».proof.Proof.Gen.KernelIdeal.Points
import proofs.«411633_j41197326303939_3_alg».proof.Proof.Gen.KernelIdeal.Frame
import proofs.«411633_j41197326303939_3_alg».proof.Proof.Gen.ReferenceIdeal
import proofs.«411633_j41197326303939_3_alg».proof.Proof.Gen.Pre_finite_inputs
import proofs.«411633_j41197326303939_3_alg».proof.Proof.PreFacts
import proofs.«411633_j41197326303939_3_alg».proof.Proof.KernelValue
import proofs.«411633_j41197326303939_3_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end at the mean of the clipped distances of the arguments they agree on. -/
theorem algebraic : Cert.algebraic_KernelIdeal_ReferenceIdeal := by
  intro m ρ m' ρ' hpre hagree
  have hf := fun c => Cert.CenterDist.Pre.of_pre _ _ _ (hpre c)
  refine ⟨fun c => fun _ => Cert.CenterDist.mean
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Value.run m ρ _ _ _ (fun _ => rfl) (fun _ => rfl) (fun _ => rfl) (fun c => (hf c).2.2), ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v20_eq, (hagree c).1, (hagree c).2.1, (hagree c).2.2]
  exact Cert.ReferenceIdeal.RefValue.result_eq _ _ _ (hf c).1 (hf c).2.1 (hf c).2.2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
